-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000, .f32⟩
  | .hbm, ⟨80, _⟩ => ⟨S50000x1, .f32⟩
  | .hbm, ⟨81, _⟩ => ⟨S50000x1, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  The mathematics both programs compute, stated once over whole arrays of extended reals.

  A node-feature array has 50000 rows (nodes) and 128 columns (features). One graph layer maps the
  node features `h` and the neighbour means `hn` to

      layer h hn Ws Wn b (r, c) = max ( (∑ₖ h(r,k)·Ws(k,c)) + (∑ₖ hn(r,k)·Wn(k,c)) + b(0,c) ) 0,

  two matrix products, a bias row and a rectifier. The closing normalisation divides every row by the larger
  of its Euclidean norm and a fixed positive threshold:

      rowNormalize ε a (r, c) = a(r,c) / max ( √(∑ₖ a(r,k)·a(r,k)) ) ε.

  The one algebraic law the comparison needs is also here: on the extended reals, multiplying by the
  reciprocal `1 / d` is dividing by `d` as soon as `d ≠ 0` (`mul_one_div`); the neighbour mean divides by a
  degree clamped from below by one, which is never zero (`max_one_ne_zero`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: 50000 nodes by 128 features. -/
abbrev SN : Shape := ⟨2, ![50000, 128]⟩
/-- A weight matrix: 128 by 128. -/
abbrev SW : Shape := ⟨2, ![128, 128]⟩
/-- A bias as a row: 1 by 128. -/
abbrev SR : Shape := ⟨2, ![1, 128]⟩
/-- A bias as a vector of 128. -/
abbrev SB : Shape := ⟨1, ![128]⟩

/-- One graph layer at node `r` and feature `c`: the node's own features through `Ws`, its neighbour mean
    through `Wn`, the bias, the rectifier. -/
def layerAt (h hn : SN.Idx → EReal) (Ws Wn : SW.Idx → EReal) (b : SR.Idx → EReal) (r : Fin 50000) (c : Fin 128) : EReal :=
  max (((∑ k : Fin 128, h (ix2 r k) * Ws (ix2 k c)) + (∑ k : Fin 128, hn (ix2 r k) * Wn (ix2 k c))) + b (ix2 0 c)) 0

/-- The layer as a whole array. -/
def layer (h hn : SN.Idx → EReal) (Ws Wn : SW.Idx → EReal) (b : SR.Idx → EReal) : SN.Idx → EReal :=
  fun i => layerAt h hn Ws Wn b ⟨(i 0).val, idx2_lt0 i⟩ ⟨(i 1).val, idx2_lt1 i⟩

/-- A row divided by the larger of its Euclidean norm and `ε`, at node `r` and feature `c`. -/
def rowNormalizeAt (ε : EReal) (a : SN.Idx → EReal) (r : Fin 50000) (c : Fin 128) : EReal :=
  Ideal.div (a (ix2 r c)) (max (Ideal.sqrt (∑ k : Fin 128, a (ix2 r k) * a (ix2 r k))) ε)

/-- The normalisation as a whole array. -/
def rowNormalize (ε : EReal) (a : SN.Idx → EReal) : SN.Idx → EReal :=
  fun i => rowNormalizeAt ε a ⟨(i 0).val, idx2_lt0 i⟩ ⟨(i 1).val, idx2_lt1 i⟩

theorem layer_ix2 (h hn : SN.Idx → EReal) (Ws Wn : SW.Idx → EReal) (b : SR.Idx → EReal) (r : Fin 50000) (c : Fin 128) :
    layer h hn Ws Wn b (ix2 r c) = layerAt h hn Ws Wn b r c := rfl

theorem rowNormalize_ix2 (ε : EReal) (a : SN.Idx → EReal) (r : Fin 50000) (c : Fin 128) :
    rowNormalize ε a (ix2 r c) = rowNormalizeAt ε a r c := rfl

/-- A bias vector laid out as the one row of a 1 by 128 array. -/
def asRow (b : SB.Idx → EReal) : SR.Idx → EReal := fun j => b (ix1 ⟨(j 1).val, idx2_lt1 j⟩)

theorem asRow_ix2 (b : SB.Idx → EReal) (c : Fin 128) : asRow b (ix2 0 c) = b (ix1 c) := rfl

/-- Off zero, the product with the reciprocal is the quotient, at the infinities too. -/
theorem mul_one_div (a d : EReal) (hd : d ≠ 0) : a * Ideal.div 1 d = Ideal.div a d := by
  unfold Ideal.div
  rw [if_neg hd, if_neg hd, one_mul]

/-- A value clamped from below by one is not zero. -/
theorem max_one_ne_zero (x : EReal) : max x 1 ≠ 0 := by
  intro h
  have h1 : (1 : EReal) ≤ max x 1 := le_max_right x 1
  rw [h] at h1
  exact absurd h1 (by norm_num)

end Cert.Sage

end
-- ==== Proof.Region0.lean ====
/-
  The first region's result array after its run, as ONE function of the arrays it is entered with.

  Grid point `t` stages rows 2000·t … 2000·t + 1999 of the node features and of their neighbour means, the two whole
  weight matrices and the bias row, and writes back the same rows of the result: at row `p` of the block and column `q`
  the body stores max ((∑ₖ h(p,k)·Ws(k,q)) + (∑ₖ hn(p,k)·Wn(k,q)) + b(0,q)) 0 — the narrowing of the operands before
  the matrix unit is the identity on extended reals, and a product into a zero accumulator is the plain sum. Row `p` of
  block `t` is row 2000·t + p of the arrays and the sums run over one whole row, so what a point writes back is its
  block of `Cert.Sage.layer` of the whole arrays; the 25 blocks cover the 50000 rows (row `r` lies in block `r / 2000`),
  hence the array ends holding that function everywhere.
-/
import proofs.«163619_j12077448036841_1_alg».proof.Proof.Gen.KernelIdeal.Frame
import proofs.«163619_j12077448036841_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The matrix product of a staged block at a row and a column -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

set_option maxHeartbeats 400000 in
/-- A block of 2000 rows times a 128 by 128 matrix, accumulated from zero, at row `p` and column `q`:
    the sum over the 128 shared coordinates. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

set_option maxHeartbeats 400000 in
/-- What the body computes of its five staged blocks, at row `p` and column `q` of the block. -/
theorem body_at (x0 x1 : Vec Ideal S2000x128 .f32) (x2 x3 : Vec Ideal S128x128 .f32) (x4 : Vec Ideal S1x128 .f32) (p : Fin 2000) (q : Fin 128) :
    k0_pay1 x0 x1 x2 x3 x4 (ix2 p q)
      = max (((∑ k : Fin 128, x0 (ix2 p k) * x2 (ix2 k q)) + (∑ k : Fin 128, x1 (ix2 p k) * x3 (ix2 k q))) + x4 (ix2 0 q)) 0 := by
  unfold k0_pay1
  rw [maximumf_apply, addf_apply, addf_apply, matmul_at, matmul_at, shapeCast_self, shapeCast_self, broadcast_apply,
    broadcastTo_apply x4 broadcasts_S1x128_S2000x128 (ix2 p q) (ix2 0 q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])]
  simp only [truncf_apply]
  show max _ (Ideal.ofBits .f32 0x00000000#32) = _
  rw [Ideal.ofBits_zero_f32]

-- the TensorCore's buffer contents when the region is entered, as extended reals
variable (V : (c : Dev nD) → (b : Ref sig .tc) → Buf (Elt Ideal) ((c : Thread nD τ).loc b))

/-! ## From the staged blocks to the arrays -/

theorem origin_zero : (![0, 0] : Fin 2 → Nat) = fun _ => 0 := funext fun a => by fin_cases a <;> rfl

/-- The block index of every window at every grid point: the row blocks follow the point, the weights and the
    bias stay at their only block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of grid point `t` is row `2000 t + p` of the array. -/
def rowOf (t : Fin cfg0.N) (p : Fin 2000) : Fin 50000 :=
  ⟨t.val * 2000 + p.val, by have ht : t.val < 25 := N_0 ▸ t.isLt; have hp := p.isLt; omega⟩

set_option maxHeartbeats 400000 in
theorem blk0_at (c : Dev nD) (t : Fin cfg0.N) (p : Fin 2000) (k : Fin 128) :
    iblk0 (F := Ideal) V c 0 t (ix2 p k) = V c main_arg0 (ix2 (rowOf t p) k) := by
  obtain ⟨e00, e01, e10, e11, e20, e21, e30, e31, e40, e41, e50, e51⟩ := block_indices t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

set_option maxHeartbeats 400000 in
theorem blk1_at (c : Dev nD) (t : Fin cfg0.N) (p : Fin 2000) (k : Fin 128) :
    iblk0 (F := Ideal) V c 1 t (ix2 p k) = V c main_v20 (ix2 (rowOf t p) k) := by
  obtain ⟨e00, e01, e10, e11, e20, e21, e30, e31, e40, e41, e50, e51⟩ := block_indices t
  show V c main_v20 (((cfg0.win 1).blk t).view.emb (ix2 p k)) = V c main_v20 (ix2 (rowOf t p) k)
  refine congrArg (V c main_v20) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

set_option maxHeartbeats 400000 in
theorem blk2_at (c : Dev nD) (t : Fin cfg0.N) (k : Fin 128) (q : Fin 128) :
    iblk0 (F := Ideal) V c 2 t (ix2 k q) = V c main_arg3 (ix2 k q) := by
  obtain ⟨e00, e01, e10, e11, e20, e21, e30, e31, e40, e41, e50, e51⟩ := block_indices t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

set_option maxHeartbeats 400000 in
theorem blk3_at (c : Dev nD) (t : Fin cfg0.N) (k : Fin 128) (q : Fin 128) :
    iblk0 (F := Ideal) V c 3 t (ix2 k q) = V c main_arg4 (ix2 k q) := by
  obtain ⟨e00, e01, e10, e11, e20, e21, e30, e31, e40, e41, e50, e51⟩ := block_indices t
  show V c main_arg4 (((cfg0.win 3).blk t).view.emb (ix2 k q)) = V c main_arg4 (ix2 k q)
  refine congrArg (V c main_arg4) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

set_option maxHeartbeats 400000 in
theorem blk4_at (c : Dev nD) (t : Fin cfg0.N) (q : Fin 128) :
    iblk0 (F := Ideal) V c 4 t (ix2 0 q) = V c main_v21 (ix2 0 q) := by
  obtain ⟨e00, e01, e10, e11, e20, e21, e30, e31, e40, e41, e50, e51⟩ := block_indices t
  show V c main_v21 (((cfg0.win 4).blk t).view.emb (ix2 0 q)) = V c main_v21 (ix2 0 q)
  refine congrArg (V c main_v21) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

set_option maxHeartbeats 400000 in
/-- Where row `p`, column `q` of the result block of point `t` lies in the result array. -/
theorem out_emb (t : Fin cfg0.N) (p : Fin 2000) (q : Fin 128) :
    ((cfg0.win 5).blk t).view.emb (ix2 p q) = ix2 (rowOf t p) q := by
  obtain ⟨e00, e01, e10, e11, e20, e21, e30, e31, e40, e41, e50, e51⟩ := block_indices t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

set_option maxHeartbeats 400000 in
/-- What grid point `t` writes back is block `t` of the layer of the arrays the region is entered with. -/
theorem writeback_eq (c : Dev nD) (t : Fin cfg0.N) :
    (dat0 (F := Ideal) V c).flushed 5 t = ((cfg0.win 5).blk t).view.read (Elt Ideal)
      (Cert.Sage.layer (V c main_arg0) (V c main_v20) (V c main_arg3) (V c main_arg4) (V c main_v21)) := by
  show (cfg0.win 5).cut (grid0.coords t) ((dat0 V c).after 5 t) = _
  rw [after0_5]
  unfold out0_5
  rw [View.canon_unit_zero origin_zero]
  simp only [View.ld_unit_zero (S := S2000x128) origin_zero, View.ld_unit_zero (S := S128x128) origin_zero, View.ld_unit_zero (S := S1x128) origin_zero]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = Cert.Sage.layer (V c main_arg0) (V c main_v20) (V c main_arg3) (V c main_arg4) (V c main_v21) (((cfg0.win 5).blk t).view.emb (ix2 p q))
  refine (body_at (iblk0 V c 0 t) (iblk0 V c 1 t) (iblk0 V c 2 t) (iblk0 V c 3 t) (iblk0 V c 4 t) p q).trans ?_
  rw [out_emb, Cert.Sage.layer_ix2]
  unfold Cert.Sage.layerAt
  simp only [blk0_at, blk1_at, blk2_at, blk3_at, blk4_at]

/-- An index of the result array is in point `t`'s block iff each coordinate is in the block's range on its axis. -/
theorem mem_rowBlock (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- Every row of the result array is in the block of the point `row / 2000`. -/
theorem rows_covered (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  let t : Fin cfg0.N := ⟨(i 0).val / 2000, by rw [show cfg0.N = 25 from N_0]; omega⟩
  obtain ⟨e00, e01, e10, e11, e20, e21, e30, e31, e40, e41, e50, e51⟩ := block_indices t
  have ht : t.val = (i 0).val / 2000 := rfl
  refine ⟨t, flush0_5 t, ?_⟩
  rw [mem_rowBlock]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

theorem final (c : Dev nD) :
    (dat0 (F := Ideal) V c).arrAt 5 cfg0.N = Cert.Sage.layer (V c main_arg0) (V c main_v20) (V c main_arg3) (V c main_arg4) (V c main_v21) :=
  (dat0 (F := Ideal) V c).arrAt_eq_of_cover 5 _ (fun t _ => writeback_eq V c t) rows_covered

end Cert.KernelIdeal.Region0

end
-- ==== Proof.Region1.lean ====
/-
  The second region's result array after its run, as ONE function of the arrays it is entered with.

  Grid point `t` stages rows 2000·t … 2000·t + 1999 of the first layer's output and of its neighbour means, the two
  whole weight matrices and the bias row. At row `p` of the block and column `q` the body forms
  a(p,q) = max ((∑ₖ h(p,k)·Ws(k,q)) + (∑ₖ hn(p,k)·Wn(k,q)) + b(0,q)) 0 and stores a(p,q) / max (√(∑ₖ a(p,k)·a(p,k))) ε.
  A block holds whole rows (all 128 columns), so the block's row sum is the array's row sum, and what a point writes
  back is its block of `Cert.Sage.rowNormalize ε (Cert.Sage.layer …)` of the whole arrays; the 25 blocks cover the 50000
  rows, hence the array ends holding that function everywhere. The threshold ε stays the same unevaluated word on
  both sides.
-/
import proofs.«163619_j12077448036841_1_alg».proof.Proof.Gen.KernelIdeal.Frame
import proofs.«163619_j12077448036841_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

-- the TensorCore's buffer contents when the region is entered, as extended reals
variable (V : (c : Dev nD) → (b : Ref sig .tc) → Buf (Elt Ideal) ((c : Thread nD τ).loc b))

/-! ## The body's arithmetic at one element of a block -/

/-- The zero offsets of a whole-buffer access. -/
theorem hz : (![0, 0] : Fin 2 → Nat) = fun _ => 0 := funext fun a => by fin_cases a <;> rfl

/-- The product's left operand is read at the output's row … -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contraction's column; -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contraction's row … -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

set_option maxHeartbeats 400000 in
/-- A block of rows times a weight matrix, accumulated from zero, at row `p` and column `q`: the sum over the 128 features. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A vector of 2000 row values laid out as a column reads, at row `p`, the vector's entry `p`. -/
theorem column_of_vector_apply {α : Type} (v : S2000.Idx → α) (h : S2000.ShapeCasts S2000x1) (p : Fin 2000) (z : Fin 1) :
    shapeCast S2000x1 v h (ix2 p z) = v (ix1 p) := by
  refine shapeCast_apply v h (ix2 p z) (ix1 p) ?_
  rw [Shape.rowMajor_val_one, Shape.rowMajor_val_two]
  show p.val = p.val * 1 + z.val
  have := z.isLt; omega

/-- A column of 2000 row values spread over the 128 features reads, at row `p` and any feature, the column's entry `p`. -/
theorem spread_column_apply {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- The sum over the feature axis of a block, at row `p`. -/
theorem row_sum_apply (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  match a with
  | ⟨0, _⟩ => exact Fin.ext rfl
  | ⟨1, _⟩ => exact Fin.ext rfl

/-- One graph layer on a block of 2000 rows, at the block's row `p` and feature `q`. -/
def blockLayerAt (x0 x1 : S2000x128.Idx → EReal) (x2 x3 : S128x128.Idx → EReal) (x4 : S1x128.Idx → EReal) (p : Fin 2000) (q : Fin 128) : EReal :=
  max (((∑ k : Fin 128, x0 (ix2 p k) * x2 (ix2 k q)) + (∑ k : Fin 128, x1 (ix2 p k) * x3 (ix2 k q))) + x4 (ix2 0 q)) 0

/-- A square root taken entry by entry. -/
theorem sqrt_at {s : Shape} {φ : FTy} (a : FVec Ideal s φ) (i : s.Idx) : sqrt a i = Ideal.sqrt (a i) := rfl

/-- The zero word is the extended real zero. -/
theorem zero_word : (FloatOps.ofBits (F := Ideal) .f32 0x00000000#32) = (0 : EReal) := Ideal.ofBits_zero_f32

set_option maxHeartbeats 400000 in
/-- The body's result at row `p` and feature `q` of its block: the layer's value there over the larger of the row's Euclidean
    norm and the threshold. Every layout step reads one entry of its operand, each product is a sum over the 128 features,
    and the lane reduction is the sum over the row. -/
theorem pay_at (x0 x1 : Vec Ideal S2000x128 .f32) (x2 x3 : Vec Ideal S128x128 .f32) (x4 : Vec Ideal S1x128 .f32) (p : Fin 2000) (q : Fin 128) :
    k1_pay1 (F := Ideal) x0 x1 x2 x3 x4 (ix2 p q)
      = Ideal.div (blockLayerAt x0 x1 x2 x3 x4 p q)
          (max (Ideal.sqrt (∑ k : Fin 128, blockLayerAt x0 x1 x2 x3 x4 p k * blockLayerAt x0 x1 x2 x3 x4 p k)) (Ideal.ofBits .f32 0x2B8CBCCC#32)) := by
  unfold k1_pay1
  dsimp only
  rw [divf_apply, spread_column_apply, maximumf_apply, maximumf_apply, broadcast_apply, broadcast_apply, sqrt_at,
    column_of_vector_apply, row_sum_apply]
  simp only [mulf_apply, maximumf_apply, addf_apply, broadcast_apply, matmul_at, truncf_apply, shapeCast_self,
    broadcastTo_1b_ab_apply, zero_word]
  unfold blockLayerAt
  rfl

/-- Where a block's rows are rows of the node arrays and its weights and bias are the layer's, the block's layer is the
    array's layer at that row. -/
theorem blockLayerAt_eq (x0 x1 : S2000x128.Idx → EReal) (x2 x3 : S128x128.Idx → EReal) (x4 : S1x128.Idx → EReal)
    (h hn : Cert.Sage.SN.Idx → EReal) (Ws Wn : Cert.Sage.SW.Idx → EReal) (b : Cert.Sage.SR.Idx → EReal) (p : Fin 2000) (r : Fin 50000)
    (e0 : ∀ k : Fin 128, x0 (ix2 p k) = h (ix2 r k)) (e1 : ∀ k : Fin 128, x1 (ix2 p k) = hn (ix2 r k))
    (e2 : ∀ k q : Fin 128, x2 (ix2 k q) = Ws (ix2 k q)) (e3 : ∀ k q : Fin 128, x3 (ix2 k q) = Wn (ix2 k q))
    (e4 : ∀ q : Fin 128, x4 (ix2 0 q) = b (ix2 0 q)) (q : Fin 128) :
    blockLayerAt x0 x1 x2 x3 x4 p q = Cert.Sage.layerAt h hn Ws Wn b r q := by
  unfold blockLayerAt Cert.Sage.layerAt
  simp only [e0, e1, e2, e3, e4]

/-- So the normalised block entry is the normalised array entry: a block holds whole rows, and the row's sum of squares
    runs over the same 128 features. -/
theorem normalized_eq (x0 x1 : S2000x128.Idx → EReal) (x2 x3 : S128x128.Idx → EReal) (x4 : S1x128.Idx → EReal)
    (h hn : Cert.Sage.SN.Idx → EReal) (Ws Wn : Cert.Sage.SW.Idx → EReal) (b : Cert.Sage.SR.Idx → EReal) (p : Fin 2000) (r : Fin 50000)
    (e0 : ∀ k : Fin 128, x0 (ix2 p k) = h (ix2 r k)) (e1 : ∀ k : Fin 128, x1 (ix2 p k) = hn (ix2 r k))
    (e2 : ∀ k q : Fin 128, x2 (ix2 k q) = Ws (ix2 k q)) (e3 : ∀ k q : Fin 128, x3 (ix2 k q) = Wn (ix2 k q))
    (e4 : ∀ q : Fin 128, x4 (ix2 0 q) = b (ix2 0 q)) (ε : EReal) (q : Fin 128) :
    Ideal.div (blockLayerAt x0 x1 x2 x3 x4 p q)
        (max (Ideal.sqrt (∑ k : Fin 128, blockLayerAt x0 x1 x2 x3 x4 p k * blockLayerAt x0 x1 x2 x3 x4 p k)) ε)
      = Cert.Sage.rowNormalize ε (Cert.Sage.layer h hn Ws Wn b) (ix2 r q) := by
  rw [Cert.Sage.rowNormalize_ix2]
  unfold Cert.Sage.rowNormalizeAt
  simp only [Cert.Sage.layer_ix2, blockLayerAt_eq x0 x1 x2 x3 x4 h hn Ws Wn b p r e0 e1 e2 e3 e4]

/-! ## From the blocks to the array -/

/-- The printed index maps over the grid: the two node arrays and the result move one block of 2000 rows per point, the
    weights and the bias stay whole; there are 25 points. -/
theorem idx_facts : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the first node array's block at point `t` is row `2000 t + p` of the array. -/
theorem read_h (c : Dev nD) (t : Fin cfg1.N) (p : Fin 2000) (r : Fin 50000) (hr : r.val = t.val * 2000 + p.val) (k : Fin 128) :
    iblk1 (F := Ideal) V c 0 t (ix2 p k) = V c main_v22 (ix2 r k) := by
  obtain ⟨-, e0, e1, -⟩ := idx_facts t
  show V c main_v22 (((cfg1.win 0).blk t).view.emb (ix2 p k)) = V c main_v22 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The same for the neighbour means. -/
theorem read_hn (c : Dev nD) (t : Fin cfg1.N) (p : Fin 2000) (r : Fin 50000) (hr : r.val = t.val * 2000 + p.val) (k : Fin 128) :
    iblk1 (F := Ideal) V c 1 t (ix2 p k) = V c main_v35 (ix2 r k) := by
  obtain ⟨-, -, -, e0, e1, -⟩ := idx_facts t
  show V c main_v35 (((cfg1.win 1).blk t).view.emb (ix2 p k)) = V c main_v35 (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The first weight matrix is staged whole at every point. -/
theorem read_Ws (c : Dev nD) (t : Fin cfg1.N) (k q : Fin 128) :
    iblk1 (F := Ideal) V c 2 t (ix2 k q) = V c main_arg6 (ix2 k q) := by
  obtain ⟨-, -, -, -, -, e0, e1, -⟩ := idx_facts t
  show V c main_arg6 (((cfg1.win 2).blk t).view.emb (ix2 k q)) = V c main_arg6 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- So is the second. -/
theorem read_Wn (c : Dev nD) (t : Fin cfg1.N) (k q : Fin 128) :
    iblk1 (F := Ideal) V c 3 t (ix2 k q) = V c main_arg7 (ix2 k q) := by
  obtain ⟨-, -, -, -, -, -, -, e0, e1, -⟩ := idx_facts t
  show V c main_arg7 (((cfg1.win 3).blk t).view.emb (ix2 k q)) = V c main_arg7 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- And the bias row. -/
theorem read_b (c : Dev nD) (t : Fin cfg1.N) (q : Fin 128) :
    iblk1 (F := Ideal) V c 4 t (ix2 (0 : Fin 1) q) = V c main_v36 (ix2 (0 : Fin 1) q) := by
  obtain ⟨-, -, -, -, -, -, -, -, -, e0, e1, -⟩ := idx_facts t
  show V c main_v36 (((cfg1.win 4).blk t).view.emb (ix2 (0 : Fin 1) q)) = V c main_v36 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

set_option maxHeartbeats 400000 in
/-- What point `t` writes back is block `t` of the normalised layer of the arrays the region is entered with. -/
theorem flushed_eq (c : Dev nD) (t : Fin cfg1.N) :
    (dat1 (F := Ideal) V c).flushed 5 t = ((cfg1.win 5).blk t).view.read (Elt Ideal)
      (Cert.Sage.rowNormalize (Ideal.ofBits .f32 0x2B8CBCCC#32) (Cert.Sage.layer (V c main_v22) (V c main_v35) (V c main_arg6) (V c main_arg7) (V c main_v36))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨ht, -, -, -, -, -, -, -, -, -, -, e0, e1⟩ := idx_facts t
  funext j
  obtain ⟨p, q, rfl⟩ : ∃ (p : Fin 2000) (q : Fin 128), j = ix2 p q := ⟨j 0, j 1, eq_ix2 j⟩
  have hr : t.val * 2000 + p.val < 50000 := by have := p.isLt; omega
  have hemb : ((cfg1.win 5).blk t).view.emb (ix2 p q) = ix2 (⟨t.val * 2000 + p.val, hr⟩ : Fin 50000) q := funext fun a => Fin.ext (by
    match a with
    | ⟨0, _⟩ => show win1_5.index t (0 : Fin 2) * 2000 + 1 * p.val = t.val * 2000 + p.val; omega
    | ⟨1, _⟩ => show win1_5.index t (1 : Fin 2) * 128 + 1 * q.val = q.val; omega)
  show k1_pay1 (F := Ideal) (iblk1 V c 0 t) (iblk1 V c 1 t) (iblk1 V c 2 t) (iblk1 V c 3 t) (iblk1 V c 4 t) (ix2 p q)
    = Cert.Sage.rowNormalize (Ideal.ofBits .f32 0x2B8CBCCC#32) (Cert.Sage.layer (V c main_v22) (V c main_v35) (V c main_arg6) (V c main_arg7) (V c main_v36))
        (((cfg1.win 5).blk t).view.emb (ix2 p q))
  rw [hemb]
  refine (pay_at (iblk1 V c 0 t) (iblk1 V c 1 t) (iblk1 V c 2 t) (iblk1 V c 3 t) (iblk1 V c 4 t) p q).trans ?_
  exact normalized_eq _ _ _ _ _ _ _ _ _ _ p ⟨t.val * 2000 + p.val, hr⟩
    (fun k => read_h V c t p _ rfl k) (fun k => read_hn V c t p _ rfl k)
    (fun k q => read_Ws V c t k q) (fun k q => read_Wn V c t k q) (fun q => read_b V c t q) _ q

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v37).slice (win1_5.rect t)).set ↔ _
  rw [View.set_slice_whole, Rect.mem_set_unit]
  exact Iff.rfl

/-- Every row lies in the block of the point its number divided by 2000 names, and every block holds all 128 features. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  have hlt : (i 0).val / 2000 < cfg1.N := by show (i 0).val / 2000 < grid1.N; omega
  obtain ⟨-, -, -, -, -, -, -, -, -, -, -, e0, e1⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    have e0' : win1_5.index ⟨(i 0).val / 2000, hlt⟩ (0 : Fin 2) = (i 0).val / 2000 := e0
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    omega

/-- The result array after the run: every row's block is written back once, and each block is the normalised layer's. -/
theorem final (c : Dev nD) :
    (dat1 (F := Ideal) V c).arrAt 5 cfg1.N = Cert.Sage.rowNormalize (Ideal.ofBits .f32 0x2B8CBCCC#32) (Cert.Sage.layer (V c main_v22) (V c main_v35) (V c main_arg6) (V c main_arg7) (V c main_v36)) :=
  (dat1 (F := Ideal) V c).arrAt_eq_of_cover 5 _ (fun t _ => flushed_eq V c t) cover

end Cert.KernelIdeal.Region1

end
-- ==== Proof.HostK.lean ====
/-
  What the two kernel regions are entered with, as terms of the launch memory.

  Before the first region the host computes the neighbour mean of the input features: the neighbour sum (gather the
  source nodes' rows, scatter-add them at the destinations) TIMES the reciprocal of the in-degree clamped from below by
  one, row by row; and it lays the bias out as a one-row matrix. Between the regions it does the same with the first
  region's result. Each buffer a region reads is named here by that term (`entry0_*`, `entry1_*`), generic in the float
  family.
-/
import proofs.«163619_j12077448036841_1_alg».proof.Proof.Gen.KernelIdeal.Frame
import proofs.«163619_j12077448036841_1_alg».proof.Proof.SageSpec
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.HostVal

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-- Node features, edge endpoints, weights, biases, bias rows and degrees as the host operations type them. -/
abbrev Feat (F : FTy → Type) [FloatOps F] : Type := (⟨S50000x128, .f32⟩ : BufTy).Contents (Elt F)
abbrev Ends (F : FTy → Type) [FloatOps F] : Type := (⟨S800000, .i32⟩ : BufTy).Contents (Elt F)
abbrev Bias (F : FTy → Type) [FloatOps F] : Type := (⟨S128, .f32⟩ : BufTy).Contents (Elt F)
abbrev Row (F : FTy → Type) [FloatOps F] : Type := (⟨S1x128, .f32⟩ : BufTy).Contents (Elt F)
abbrev Deg (F : FTy → Type) [FloatOps F] : Type := (⟨S50000, .f32⟩ : BufTy).Contents (Elt F)

/-- The neighbour sum: row `e` of the gathered array is row `src e` of `h` (a negative index counted from the end),
    and the rows are added into a zero array at the rows `dst e`. -/
def nbrSum (h : Feat F) (src dst : Ends F) : Feat F :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The in-degree (ones added at the destinations), clamped from below by one. -/
def degClamped (dst : Ends F) : Deg F :=
  maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))

/-- The reciprocal of the clamped degree. -/
def degRecip (dst : Ends F) : Deg F :=
  Host.divf (broadcastInDim S50000 ![] bcast_S_S50000 (constant S_ .f32 0x3F800000#32)) (degClamped dst)

/-- A per-node value repeated along the node's row. -/
def perRow (d : Deg F) : Feat F :=
  broadcastInDim S50000x128 ![0, 1] bcast_S50000x1_S50000x128_0_1 (broadcastInDim S50000x1 ![0] bcast_S50000_S50000x1_0 d)

/-- The neighbour mean as a quotient: the neighbour sum divided by the clamped degree. -/
def nbrMean (h : Feat F) (src dst : Ends F) : Feat F :=
  Host.divf (nbrSum h src dst) (perRow (degClamped dst))

/-- The neighbour mean as the kernel's host code computes it: the neighbour sum times the reciprocal. -/
def nbrMeanMul (h : Feat F) (src dst : Ends F) : Feat F :=
  mulf (nbrSum h src dst) (perRow (degRecip dst))

/-- A bias laid out as a one-row matrix. -/
def biasRow (b : Bias F) : Row F := shapeCast S1x128 b shapeCasts_S128_S1x128

variable (m : (ℓ : Loc nD τ sig) → Buf (Elt F) ℓ) (ρ : Dev nD → PrngReg)

/-! ## The first region's entry -/

theorem entry0_h (c : Dev nD) : V1 m ρ c main_arg0 = (m ((c : Thread nD τ).loc main_arg0)) := by
  show StableHlo.after hostOps0 (W0 m ρ c) (Proc.devRef .tc main_arg0) = _
  after_results_simp
theorem entry0_ws (c : Dev nD) : V1 m ρ c main_arg3 = (m ((c : Thread nD τ).loc main_arg3)) := by
  show StableHlo.after hostOps0 (W0 m ρ c) (Proc.devRef .tc main_arg3) = _
  after_results_simp
theorem entry0_wn (c : Dev nD) : V1 m ρ c main_arg4 = (m ((c : Thread nD τ).loc main_arg4)) := by
  show StableHlo.after hostOps0 (W0 m ρ c) (Proc.devRef .tc main_arg4) = _
  after_results_simp
theorem entry0_hn (c : Dev nD) : V1 m ρ c main_v20 = nbrMeanMul (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl
theorem entry0_b (c : Dev nD) : V1 m ρ c main_v21 = biasRow (m ((c : Thread nD τ).loc main_arg5)) := by
  show StableHlo.after hostOps0 (W0 m ρ c) (Proc.devRef .tc main_v21) = _
  after_results_simp
  rfl

/-! ## What the first region leaves for the host operations between the regions -/

theorem mid_src (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  after_results_simp
theorem mid_dst (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results_simp
theorem mid_ws (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp
theorem mid_wn (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp
theorem mid_b (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp
theorem mid_recip (c : Dev nD) : W2 m ρ c (Proc.devRef .tc main_v7) = degRecip (m ((c : Thread nD τ).loc main_arg2)) := by
  rw [W2_of_ne m ρ c main_v7 (by decide)]
  show StableHlo.after hostOps0 (W0 m ρ c) (Proc.devRef .tc main_v7) = _
  after_results_simp
  rfl
/-- The first region's result array, as the run leaves it. -/
theorem mid_h (c : Dev nD) : W2 m ρ c (Proc.devRef .tc main_v22) = (dat0 (V1 m ρ) c).arrAt 5 cfg0.N :=
  W2_arr m ρ c 5

/-! ## The second region's entry -/

theorem entry1_h (c : Dev nD) : V3 m ρ c main_v22 = W2 m ρ c (Proc.devRef .tc main_v22) := by
  show StableHlo.after hostOps1 (W2 m ρ c) (Proc.devRef .tc main_v22) = _
  after_results_simp
theorem entry1_ws (c : Dev nD) : V3 m ρ c main_arg6 = (m ((c : Thread nD τ).loc main_arg6)) := by
  show StableHlo.after hostOps1 (W2 m ρ c) (Proc.devRef .tc main_arg6) = _
  after_results_simp
  exact mid_ws m ρ c
theorem entry1_wn (c : Dev nD) : V3 m ρ c main_arg7 = (m ((c : Thread nD τ).loc main_arg7)) := by
  show StableHlo.after hostOps1 (W2 m ρ c) (Proc.devRef .tc main_arg7) = _
  after_results_simp
  exact mid_wn m ρ c
theorem entry1_hn (c : Dev nD) : V3 m ρ c main_v35 = nbrMeanMul (W2 m ρ c (Proc.devRef .tc main_v22)) (m ((c : Thread nD τ).loc main_arg1)) (m ((c : Thread nD τ).loc main_arg2)) := by
  show StableHlo.after hostOps1 (W2 m ρ c) (Proc.devRef .tc main_v35) = _
  after_results_simp
  rw [mid_src, mid_dst, mid_recip]
  rfl
theorem entry1_b (c : Dev nD) : V3 m ρ c main_v36 = biasRow (m ((c : Thread nD τ).loc main_arg8)) := by
  show StableHlo.after hostOps1 (W2 m ρ c) (Proc.devRef .tc main_v36) = _
  after_results_simp
  rw [mid_b]
  rfl

end Cert.KernelIdeal.HostVal

end
-- ==== Proof.HostIdeal.lean ====
/-
  Over the extended reals: the product of the neighbour sum with the reciprocal of the clamped in-degree is the
  quotient by it, because a degree clamped from below by one is never zero and off zero the two agree on every
  extended real (`nbrMeanMul_eq`); and the one-row layout of a bias is the bias read along the row (`biasRow_eq`).
-/
import proofs.«163619_j12077448036841_1_alg».proof.Proof.HostK
import Idealize.ShloMosaic.Lib.IdealHost

set_option maxRecDepth 16384

noncomputable section

namespace Cert.KernelIdeal.HostVal

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

set_option maxHeartbeats 400000 in
/-- A per-node value repeated along the row, read at an index: the node's value. -/
theorem perRow_apply (d : Deg F) (i : S50000x128.Idx) : perRow d i = d (ix1 ⟨(i 0).val, idx2_lt0 i⟩) := by
  unfold perRow
  refine (broadcastInDim_apply ![0, 1] bcast_S50000x1_S50000x128_0_1 (broadcastInDim S50000x1 ![0] bcast_S50000_S50000x1_0 d) i
    (ix2 ⟨(i 0).val, idx2_lt0 i⟩ (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply ![0] bcast_S50000_S50000x1_0 d _ (ix1 ⟨(i 0).val, idx2_lt0 i⟩) (fun a => match a with
    | ⟨0, _⟩ => by show (i 0).val = if (50000 : Nat) = 1 then 0 else (i 0).val; rw [if_neg (by decide)])

set_option maxHeartbeats 400000 in
/-- Any per-node value clamped from below by the word of one is not zero at any node. -/
theorem clamp_ne_zero (s : Deg Ideal) (j : S50000.Idx) :
    maximumf s (broadcastInDim S50000 ![] bcast_S_S50000 (constant (F := Ideal) S_ .f32 0x3F800000#32)) j ≠ 0 := by
  have h1 : (broadcastInDim S50000 ![] bcast_S_S50000 (constant (F := Ideal) S_ .f32 0x3F800000#32)) j = 1 := Ideal.ofBits_one_f32
  rw [maximumf_apply, h1]
  exact Cert.Sage.max_one_ne_zero _

set_option maxHeartbeats 400000 in
/-- The clamped degree is never zero. -/
theorem degClamped_ne_zero (dst : Ends Ideal) (j : S50000.Idx) : degClamped (F := Ideal) dst j ≠ 0 := by
  unfold degClamped
  exact clamp_ne_zero _ j

set_option maxHeartbeats 400000 in
/-- The reciprocal of the clamped degree, at a node. -/
theorem degRecip_apply (dst : Ends Ideal) (j : S50000.Idx) :
    degRecip (F := Ideal) dst j = Ideal.div 1 (degClamped (F := Ideal) dst j) := by
  unfold degRecip
  generalize degClamped (F := Ideal) dst = dc
  refine (divf_apply _ dc j).trans ?_
  refine congrArg (fun y => Ideal.div y (dc j)) ?_
  exact Ideal.ofBits_one_f32

set_option maxHeartbeats 400000 in
/-- Multiplying the neighbour sum by the reciprocal of the clamped degree is dividing by it: the clamped degree is
    at least one, so it is not zero, and off zero the two agree on every extended real. -/
theorem nbrMeanMul_eq (h : Feat Ideal) (src dst : Ends Ideal) :
    nbrMeanMul (F := Ideal) h src dst = nbrMean (F := Ideal) h src dst := by
  funext i
  unfold nbrMeanMul nbrMean
  generalize nbrSum (F := Ideal) h src dst = s
  refine (mulf_apply s _ i).trans ?_
  refine Eq.trans ?_ (divf_apply s _ i).symm
  rw [perRow_apply, perRow_apply, degRecip_apply]
  exact Cert.Sage.mul_one_div _ _ (degClamped_ne_zero dst _)

set_option maxHeartbeats 400000 in
/-- The one-row layout of a bias is the bias read along the row. -/
theorem biasRow_eq (b : Bias Ideal) : biasRow (F := Ideal) b = Cert.Sage.asRow b := by
  funext j
  unfold biasRow Cert.Sage.asRow
  exact shapeCast_apply b shapeCasts_S128_S1x128 j (ix1 ⟨(j 1).val, idx2_lt1 j⟩) (by
    rw [Shape.rowMajor_val_two, Shape.rowMajor_val_one]
    show (j 1).val = (j 0).val * 128 + (j 1).val
    have h0 : (j 0).val < 1 := (j 0).isLt
    omega)

end Cert.KernelIdeal.HostVal

end
-- ==== Proof.RefValue.lean ====
/-
  The reference's result as the two graph layers and the closing row normalisation.

  The reference's run ends at ONE composed term of host operations. Named here, generic in the float family, are its
  four repeating pieces: the neighbour sum (gather the source nodes' rows, scatter-add them at the destinations), the
  in-degree clamped from below by one, the neighbour mean (the sum divided, row by row, by the clamped degree), the
  dense layer (two matrix products, the bias, the rectifier) and the row normalisation; the run's term IS their
  composition (`res_eq`, by unfolding). Read at an index over the extended reals, the dense layer is `Cert.Sage.layer`
  and the normalisation `Cert.Sage.rowNormalize` (`dense_eq`, `unitRows_eq`).
-/
import proofs.«163619_j12077448036841_1_alg».proof.Proof.Gen.ReferenceIdeal.Run
import proofs.«163619_j12077448036841_1_alg».proof.Proof.Gen.ReferenceIdeal.Read
import proofs.«163619_j12077448036841_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- Node features, edge endpoints, weights, biases and degrees as the host operations type them. -/
abbrev Feat (F : FTy → Type) [FloatOps F] : Type := (⟨S50000x128, .f32⟩ : BufTy).Contents (Elt F)
abbrev Ends (F : FTy → Type) [FloatOps F] : Type := (⟨S800000, .i32⟩ : BufTy).Contents (Elt F)
abbrev Wt (F : FTy → Type) [FloatOps F] : Type := (⟨S128x128, .f32⟩ : BufTy).Contents (Elt F)
abbrev Bias (F : FTy → Type) [FloatOps F] : Type := (⟨S128, .f32⟩ : BufTy).Contents (Elt F)
abbrev Deg (F : FTy → Type) [FloatOps F] : Type := (⟨S50000, .f32⟩ : BufTy).Contents (Elt F)

/-- The neighbour sum: row `e` of the gathered array is row `src e` of `h` (a negative index counted from the end),
    and the rows are added into a zero array at the rows `dst e`. -/
def nbrSum (h : Feat F) (src dst : Ends F) : Feat F :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The in-degree (ones added at the destinations), clamped from below by one. -/
def degClamped (dst : Ends F) : Deg F :=
  maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))

/-- A per-node value repeated along the node's row. -/
def perRow (d : Deg F) : Feat F :=
  broadcastInDim S50000x128 ![0, 1] bcast_S50000x1_S50000x128_0_1 (broadcastInDim S50000x1 ![0] bcast_S50000_S50000x1_0 d)

/-- The neighbour mean: the neighbour sum divided by the clamped degree. -/
def nbrMean (h : Feat F) (src dst : Ends F) : Feat F :=
  Host.divf (nbrSum h src dst) (perRow (degClamped dst))

/-- The dense layer: `h · Ws + hn · Wn + b`, rectified. -/
def dense (h hn : Feat F) (Ws Wn : Wt F) (b : Bias F) : Feat F :=
  maximumf (addf (addf (Host.dotGeneral dot_S50000x128_S128x128_S50000x128_1_0_0_1_n_n none h Ws) (Host.dotGeneral dot_S50000x128_S128x128_S50000x128_1_0_0_1_n_n none hn Wn)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Every row divided by the larger of its Euclidean norm and the threshold. -/
def unitRows (a : Feat F) : Feat F :=
  Host.divf a (broadcastInDim S50000x128 ![0, 1] bcast_S50000x1_S50000x128_0_1 (maximumf (Host.sqrt (broadcastInDim S50000x1 ![0] bcast_S50000_S50000x1_0 (Host.reduceAdd (mulf a a) (constant S_ .f32 0x00000000#32) reducesTo_S50000x128_S50000_d1 h_S_))) (broadcastInDim S50000x1 ![] bcast_S_S50000x1 (constant S_ .f32 0x2B8CBCCC#32))))

/-- The first layer's output of the reference. -/
def hidden (m : (ℓ : Loc nD τ sig) → Buf (Elt F) ℓ) (c : Dev nD) : Feat F :=
  dense (m ((c.tc : Thread nD τ).loc main_arg0)) (nbrMean (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))

set_option maxRecDepth 8192 in
/-- The run's term is the composition: layer, layer, normalisation. -/
theorem res_eq (m : (ℓ : Loc nD τ sig) → Buf (Elt F) ℓ) (c : Dev nD) :
    Value.res_main_v59 m c = unitRows (dense (hidden m c) (nbrMean (hidden m c) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8))) := by
  unfold Value.res_main_v59 unitRows hidden dense nbrMean perRow degClamped nbrSum
  rfl

/-- A matrix product at node `r` and feature `c`: the sum over `k` of the left operand at `(r, k)` times the right
    operand at `(k, c)`. -/
theorem dot_at (x : Feat Ideal) (w : Wt Ideal) (i : S50000x128.Idx) :
    Host.dotGeneral (F := Ideal) (φ₁ := .f32) (φ₂ := .f32) dot_S50000x128_S128x128_S50000x128_1_0_0_1_n_n none x w i
      = ∑ k : Fin 128, x (ix2 ⟨(i 0).val, idx2_lt0 i⟩ k) * w (ix2 k ⟨(i 1).val, idx2_lt1 i⟩) := by
  refine (Read.val_main_v19_apply x w i).trans (Finset.sum_congr rfl fun k _ => ?_)
  have el : Read.lidx_main_v19 i k = ix2 ⟨(i 0).val, idx2_lt0 i⟩ k :=
    funext fun a => Fin.ext (by match a with | ⟨0, _⟩ => rfl | ⟨1, _⟩ => rfl)
  have er : Read.ridx_main_v19 i k = ix2 k ⟨(i 1).val, idx2_lt1 i⟩ :=
    funext fun a => Fin.ext (by match a with | ⟨0, _⟩ => rfl | ⟨1, _⟩ => rfl)
  rw [el, er]

/-- The bias repeated along the nodes, at `(r, c)`: the bias row at `(0, c)`. -/
theorem bias_at (b : Bias Ideal) (i : S50000x128.Idx) :
    broadcastInDim S50000x128 ![0, 1] bcast_S1x128_S50000x128_0_1 (broadcastInDim S1x128 ![1] bcast_S128_S1x128_1 b) i
      = Cert.Sage.asRow b (ix2 0 ⟨(i 1).val, idx2_lt1 i⟩) := by
  refine (Read.val_main_v23_apply b i).trans ((Read.val_main_v22_apply b _).trans ?_)
  exact congrArg b (funext fun a => Fin.ext (by match a with | ⟨0, _⟩ => rfl))

/-- The rectifier's zero array is the extended real zero everywhere. -/
theorem zero_at (i : S50000x128.Idx) :
    broadcastInDim S50000x128 ![] bcast_S_S50000x128 (constant (F := Ideal) S_ .f32 0x00000000#32) i = (0 : EReal) := by
  refine (Read.val_main_call0_v0_apply (F := Ideal) i).trans ?_
  exact Ideal.ofBits_zero_f32

/-- A row's sum from the zero word: the sum over the row's entries. -/
theorem rowSum_at (y : Feat Ideal) (j : S50000.Idx) :
    Host.reduceAdd (F := Ideal) y (constant S_ .f32 0x00000000#32) reducesTo_S50000x128_S50000_d1 h_S_ j
      = ∑ k : Fin 128, y (ix2 ⟨(j 0).val, (j 0).isLt⟩ k) := by
  simp only [Host.reduceAdd, Ideal.hostReduceAdd_def]
  rw [Ideal.hostReduceAdd_single reducesTo_S50000x128_S50000_d1 (by decide), ValueIdx.constant_apply,
    Ideal.ofBits_zero_f32, zero_add]
  refine Finset.sum_congr rfl fun k _ => ?_
  exact congrArg y (funext fun a => Fin.ext (by match a with | ⟨0, _⟩ => rfl | ⟨1, _⟩ => rfl))

/-- A per-node value as a one-column array, at `(r, 0)`: the value at `r`. -/
theorem toCol_at (d : Deg Ideal) (j : S50000x1.Idx) :
    broadcastInDim S50000x1 ![0] bcast_S50000_S50000x1_0 d j = d (ix1 ⟨(j 0).val, (j 0).isLt⟩) :=
  broadcastInDim_apply _ bcast_S50000_S50000x1_0 d j (ix1 ⟨(j 0).val, (j 0).isLt⟩) (fun a => match a with
    | ⟨0, _⟩ => by show (j 0).val = if (50000 : Nat) = 1 then 0 else (j 0).val; rw [if_neg (by decide)])

/-- A one-column array repeated along the features, at `(r, c)`: the column at `(r, 0)`. -/
theorem col_at (y : (⟨S50000x1, .f32⟩ : BufTy).Contents (Elt Ideal)) (i : S50000x128.Idx) :
    broadcastInDim S50000x128 ![0, 1] bcast_S50000x1_S50000x128_0_1 y i = y (ix2 ⟨(i 0).val, idx2_lt0 i⟩ 0) :=
  broadcastInDim_apply _ bcast_S50000x1_S50000x128_0_1 y i (ix2 ⟨(i 0).val, idx2_lt0 i⟩ 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The threshold's array is the threshold everywhere. -/
theorem eps_at (j : S50000x1.Idx) :
    broadcastInDim S50000x1 ![] bcast_S_S50000x1 (constant (F := Ideal) S_ .f32 0x2B8CBCCC#32) j
      = Ideal.ofBits .f32 0x2B8CBCCC#32 :=
  (Read.val_main_v56_apply (F := Ideal) j).trans (ValueIdx.constant_apply _ _)

/-- Over the extended reals the dense layer is the layer of the specification, the bias read as a row. -/
theorem dense_eq (h hn : Feat Ideal) (Ws Wn : Wt Ideal) (b : Bias Ideal) :
    dense (F := Ideal) h hn Ws Wn b = Cert.Sage.layer h hn Ws Wn (Cert.Sage.asRow b) := by
  funext i
  unfold dense
  simp only [maximumf, addf]
  rw [dot_at h Ws i, dot_at hn Wn i, bias_at b i, zero_at i]
  rfl

/-- Over the extended reals the row normalisation is that of the specification. -/
theorem unitRows_eq (a : Feat Ideal) :
    unitRows (F := Ideal) a = Cert.Sage.rowNormalize (Ideal.ofBits .f32 0x2B8CBCCC#32) a := by
  funext i
  have hi : i = ix2 ⟨(i 0).val, idx2_lt0 i⟩ ⟨(i 1).val, idx2_lt1 i⟩ :=
    funext fun a => match a with | ⟨0, _⟩ => rfl | ⟨1, _⟩ => rfl
  unfold unitRows
  simp only [Host.divf]
  rw [col_at]
  simp only [maximumf, Host.sqrt]
  rw [toCol_at, eps_at, rowSum_at]
  unfold Cert.Sage.rowNormalize Cert.Sage.rowNormalizeAt
  rw [← hi]
  rfl

end Cert.ReferenceIdeal.RefValue

end
-- ==== Proof.Bridge.lean ====
/-
  The kernel's result and the reference's result are one function of the argument arrays.

  Kernel side: the result array after the run is what the second region's write-backs leave; the second region leaves
  the row-normalised layer of the arrays it is entered with; those are the first region's result, its neighbour mean
  computed by the host, and the second layer's weights and bias; the first region's result is the layer of the input
  features, their neighbour mean, and the first layer's weights and bias. The host computes each neighbour mean as a
  product with the reciprocal of the clamped in-degree, which over the extended reals is the quotient.
  Reference side: the run's composed term is the same two layers and the same normalisation, the neighbour mean a
  quotient from the start. The two programs name the neighbour mean through their own copies of the same shape
  records, so the two terms are equal by unfolding.
-/
import proofs.«163619_j12077448036841_1_alg».proof.Proof.KernelRun
import proofs.«163619_j12077448036841_1_alg».proof.Proof.Region0
import proofs.«163619_j12077448036841_1_alg».proof.Proof.Region1
import proofs.«163619_j12077448036841_1_alg».proof.Proof.HostK
import proofs.«163619_j12077448036841_1_alg».proof.Proof.HostIdeal
import proofs.«163619_j12077448036841_1_alg».proof.Proof.RefValue

set_option maxRecDepth 16384

noncomputable section

namespace Cert.Proof.Bridge

open Idealize.ShloMosaic Idealize.ShloMosaic.TcCoe Idealize.SL.Sem

/-- The neighbour mean of the kernel's program and that of the reference are the same host operations. -/
theorem nbrMean_same {F : FTy → Type} [FloatOps F] (h : Cert.KernelIdeal.HostVal.Feat F) (s d : Cert.KernelIdeal.HostVal.Ends F) :
    Cert.KernelIdeal.HostVal.nbrMean h s d = Cert.ReferenceIdeal.RefValue.nbrMean h s d := rfl

/-- The threshold of the row normalisation, the same word in both programs. -/
abbrev ε : EReal := Ideal.ofBits .f32 0x2B8CBCCC#32

/-- The function both programs compute, of the nine argument arrays. -/
def sage (x : Cert.KernelIdeal.HostVal.Feat Ideal) (src dst : Cert.KernelIdeal.HostVal.Ends Ideal)
    (ws0 wn0 : Cert.Sage.SW.Idx → EReal) (b0 : Cert.KernelIdeal.HostVal.Bias Ideal)
    (ws1 wn1 : Cert.Sage.SW.Idx → EReal) (b1 : Cert.KernelIdeal.HostVal.Bias Ideal) : Cert.Sage.SN.Idx → EReal :=
  Cert.Sage.rowNormalize ε
    (Cert.Sage.layer (Cert.Sage.layer x (Cert.KernelIdeal.HostVal.nbrMean x src dst) ws0 wn0 (Cert.Sage.asRow b0))
      (Cert.KernelIdeal.HostVal.nbrMean (Cert.Sage.layer x (Cert.KernelIdeal.HostVal.nbrMean x src dst) ws0 wn0 (Cert.Sage.asRow b0)) src dst)
      ws1 wn1 (Cert.Sage.asRow b1))

section Kernel
open Cert.KernelIdeal Cert.KernelIdeal.Gen Cert.KernelIdeal.HostVal

variable (m : (ℓ : Loc Cert.KernelIdeal.nD Cert.KernelIdeal.τ Cert.KernelIdeal.sig) → Buf (Elt Ideal) ℓ) (ρ : Dev Cert.KernelIdeal.nD → PrngReg)

/-- The first region's result: the first layer. -/
theorem hidden_value (c : Dev Cert.KernelIdeal.nD) :
    (dat0 (F := Ideal) (V1 m ρ) c).arrAt 5 cfg0.N
      = Cert.Sage.layer (m ((c.tc : Thread Cert.KernelIdeal.nD Cert.KernelIdeal.τ).loc Cert.KernelIdeal.main_arg0)) (nbrMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.Sage.asRow (m ((c.tc : Thread Cert.KernelIdeal.nD Cert.KernelIdeal.τ).loc Cert.KernelIdeal.main_arg5))) := by
  rw [Cert.KernelIdeal.Region0.final (V1 m ρ) c, entry0_h, entry0_hn, entry0_ws, entry0_wn, entry0_b, nbrMeanMul_eq, biasRow_eq]

/-- The result array after the kernel's run. -/
theorem kernel_value (c : Dev Cert.KernelIdeal.nD) :
    W4 m ρ c (Proc.devRef .tc main_v37)
      = sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  refine (W4_arr m ρ c 5).trans ?_
  rw [Cert.KernelIdeal.Region1.final (V3 m ρ) c, entry1_h, entry1_hn, entry1_ws, entry1_wn, entry1_b, mid_h, hidden_value,
    nbrMeanMul_eq, biasRow_eq]
  rfl

end Kernel

section Reference
open Cert.ReferenceIdeal Cert.ReferenceIdeal.Gen Cert.ReferenceIdeal.RefValue

/-- The reference's result. -/
theorem reference_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v59 (F := Ideal) m c
      = sage (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [res_eq, unitRows_eq, dense_eq]
  unfold Cert.ReferenceIdeal.RefValue.hidden
  rw [dense_eq]
  unfold sage
  simp only [nbrMean_same]

end Reference

end Cert.Proof.Bridge

end
-- ==== Proof.lean ====
/-
  A two-layer graph network with mean aggregation, a rectifier after each layer and a closing row normalisation:
  the Pallas kernel (two tiled matrix-product regions between host gathers and scatter-adds) against the plain
  jnp reference, equal as functions of the argument arrays over the extended reals.

  Both programs compute, for node features `x`, edges `src → dst`, weights and biases,
      h   = relu (x · Ws₀ + mean(x) · Wn₀ + b₀),
      out = normalise (relu (h · Ws₁ + mean(h) · Wn₁ + b₁)),
  where mean(·) adds the source rows at each destination and divides by the in-degree clamped from below by one, and
  normalise divides each row by the larger of its Euclidean norm and a small threshold. The kernel's host code
  multiplies by the reciprocal of the clamped degree where the reference divides by it; the clamped degree is at
  least one, so it is never zero, and off zero the two agree on every extended real. The kernel's regions take the
  matrix products block of rows by block of rows; a row's sums and its norm need only that row, so the blocks are
  restrictions of one whole-array function. Nothing else differs, and no finiteness of the inputs is used.

  The frames of the two kernel programs are the generated ones; the reference's frame is its generated run with the
  result dropped; the idealisation rewrote no operation.
-/
import proofs.«163619_j12077448036841_1_alg».proof.Defs
import proofs.«163619_j12077448036841_1_alg».proof.Proof.Gen.Kernel
import proofs.«163619_j12077448036841_1_alg».proof.Proof.Gen.Kernel.Skeleton
import proofs.«163619_j12077448036841_1_alg».proof.Proof.Gen.Kernel.Launch
import proofs.«163619_j12077448036841_1_alg».proof.Proof.Gen.Kernel.Points
import proofs.«163619_j12077448036841_1_alg».proof.Proof.Gen.Kernel.Frame
import proofs.«163619_j12077448036841_1_alg».proof.Proof.Gen.KernelIdeal
import proofs.«163619_j12077448036841_1_alg».proof.Proof.Gen.KernelIdeal.Skeleton
import proofs.«163619_j12077448036841_1_alg».proof.Proof.Gen.KernelIdeal.Launch
import proofs.«163619_j12077448036841_1_alg».proof.Proof.Gen.KernelIdeal.Points
import proofs.«163619_j12077448036841_1_alg».proof.Proof.Gen.KernelIdeal.Frame
import proofs.«163619_j12077448036841_1_alg».proof.Proof.Gen.ReferenceIdeal
import proofs.«163619_j12077448036841_1_alg».proof.Proof.Gen.Pre_finite_inputs
import proofs.«163619_j12077448036841_1_alg».proof.Proof.Gen.ReferenceIdeal.Run
import proofs.«163619_j12077448036841_1_alg».proof.Proof.Gen.ReferenceIdeal.Read
import proofs.«163619_j12077448036841_1_alg».proof.Proof.KernelRun
import proofs.«163619_j12077448036841_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the one function `Bridge.sage` of them. -/
theorem algebraic : Cert.algebraic_KernelIdeal_ReferenceIdeal := by
  intro m ρ m' ρ' _ hagree
  refine ⟨fun c => Bridge.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Bridge.kernel_value m ρ c), (h c).2⟩)
      (Cert.KernelIdeal.GenRun.run_named m ρ)
  · refine (θ_run Cert.ReferenceIdeal.defs _ _).mono (fun r h c => ⟨(h c).1.trans ?_, (h c).2⟩)
      (Cert.ReferenceIdeal.Value.run (F := Ideal) m' ρ')
    rw [Bridge.reference_value, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
